-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S512x512 : Shape := ⟨2, ![512, 512]⟩
abbrev S512 : Shape := ⟨1, ![512]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S64x1024x512 .f32) (main_arg1 : FVec F S512x512 .f32) (main_arg2 : FVec F S512 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S64x1024x512 : Shape := ⟨3, ![64, 1024, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S1x1024x512 : Shape := ⟨3, ![1, 1024, 512]⟩
abbrev S1024x512 : Shape := ⟨2, ![1024, 512]⟩

abbrev nBuf : Space → Nat
  | .hbm => 16
  | .vmem => 6
  | .smem => 0
  | _ => 0

abbrev bufTy : (tb : Table) → Fin (tcTables nBuf tb) → BufTy
  | .hbm, ⟨0, _⟩ => ⟨S64x1024x512, .f32⟩
  | .hbm, ⟨1, _⟩ => ⟨S512x512, .f32⟩
  | .hbm, ⟨2, _⟩ => ⟨S512, .f32⟩
  | .hbm, ⟨3, _⟩ => ⟨S512x512, .i32⟩
  | .hbm, ⟨4, _⟩ => ⟨S_, .i32⟩
  | .hbm, ⟨5, _⟩ => ⟨S512x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .bf16⟩
  | .hbm, ⟨14, _⟩ => ⟨S1x512, .f32⟩
  | .hbm, ⟨15, _⟩ => ⟨S64x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .bf16⟩
  | .local _ .vmem, ⟨3, _⟩ => ⟨S1x512, .f32⟩
  | .local _ .vmem, ⟨4, _⟩ => ⟨S1x1024x512, .f32⟩
  | .local _ .vmem, ⟨5, _⟩ => ⟨S1x1024x512, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x512 : S_.BroadcastsInDim S512x512 (![] : Fin 0 → Fin S512x512.rank)
  transposes_S512x512_S512x512_1_0 : S512x512.Transposes [1, 0] S512x512
  bitsLt_bf16_f32 : FTy.bits .bf16 < FTy.bits .f32
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S64x1024x512.size a
  hwx0_0 : ∀ i : grid0.Coords, EltTy.bits .f32 = 32 ∨ (Rect.block (s := S64x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S64x1024x512.size a
  hwx0_3 : ∀ i : grid0.Coords, EltTy.bits .f32 = 32 ∨ (Rect.block (s := S64x1024x512) S1x1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x512 : Shape := ⟨3, ![64, 1024, 512]⟩
abbrev S512x512 : Shape := ⟨2, ![512, 512]⟩
abbrev S512 : Shape := ⟨1, ![512]⟩
abbrev S_ : Shape := ⟨0, ![]⟩
abbrev S1x1x512 : Shape := ⟨3, ![1, 1, 512]⟩

abbrev nBuf : Space → Nat
  | .hbm => 16
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S512x512, .f32⟩
  | .hbm, ⟨2, _⟩ => ⟨S512, .f32⟩
  | .hbm, ⟨3, _⟩ => ⟨S512x512, .i32⟩
  | .hbm, ⟨4, _⟩ => ⟨S_, .i32⟩
  | .hbm, ⟨5, _⟩ => ⟨S512x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S64x1024x512, .f32⟩
  | .hbm, ⟨13, _⟩ => ⟨S1x1x512, .f32⟩
  | .hbm, ⟨14, _⟩ => ⟨S64x1024x512, .f32⟩
  | .hbm, ⟨15, _⟩ => ⟨S64x1024x512, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512_S1x1x512_2 : S512.BroadcastsInDim S1x1x512 (![2] : Fin 1 → Fin S1x1x512.rank)
  bcast_S1x1x512_S64x1024x512_0_1_2 : S1x1x512.BroadcastsInDim S64x1024x512 (![0, 1, 2] : Fin 3 → Fin S64x1024x512.rank)
  dot_S64x1024x512_S512x512_S64x1024x512_2_1_01_0_n_n_wf : DotDims.WF S64x1024x512 S512x512 S64x1024x512 [2] [1] [0, 1] [0] [] []

variable [Facts₀]

def dot_S64x1024x512_S512x512_S64x1024x512_2_1_01_0_n_n : DotDims S64x1024x512 S512x512 S64x1024x512 where
  lhsContracting := [2]
  rhsContracting := [1]
  lhsNonContracting := [0, 1]
  rhsNonContracting := [0]
  lhsBatch := []
  rhsBatch := []
  wf := dot_S64x1024x512_S512x512_S64x1024x512_2_1_01_0_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.BodyAtIndex.lean ====
/-
  The kernel body's stored value, read at an index.

  At one grid point the body holds a block x of activations of shape [1, 1024, 512], the whole transposed masked
  weight matrix w of shape [512, 512] (w (κ, i) is the coefficient of input feature κ in output feature i) and the
  bias as a row of shape [1, 512]. It stores, at (0, n, i),

      sum over κ < 512 of  x (0, n, κ) * w (κ, i)   +   bias (0, i) :

  the narrowing of x to bf16 is the identity on the extended reals, the matrix product into the zero accumulator is
  the plain sum of products, the bias row is repeated down the 1024 rows, and the leading unit axis is dropped
  before the product and put back after the sum.
-/
import proofs.«115939_j30640296690077_1_alg».proof.Proof.Gen.KernelIdeal.Skeleton
import proofs.«115939_j30640296690077_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body
open Cert.KernelIdeal Cert.KernelIdeal.Gen Idealize.ShloMosaic Idealize.ShloMosaic.ValueIdx

/-- The kernel's product contracts the activations' feature axis with the weight matrix's row axis. -/
theorem dot_plain : PlainDot.IsPlain dot_S1024x512_S512x512_S1024x512_1_0_0_1_n_n := ⟨rfl, rfl, rfl, rfl, rfl, rfl⟩

/-- The stored value at row n, output feature i of the block. -/
theorem stored_apply (x : Vec Ideal S1x1024x512 .f32) (w : Vec Ideal S512x512 .bf16) (bias : Vec Ideal S1x512 .f32)
    (u : Fin 1) (n : Fin 1024) (i : Fin 512) :
    k0_pay1 x w bias (ix3 u n i) = (∑ κ : Fin 512, x (ix3 0 n κ) * w (ix2 κ i)) + bias (ix2 0 i) := by
  unfold k0_pay1
  rw [shapeCast_ab_1ab_apply, addf_apply, shapeCast_self, shapeCast_self, broadcastTo_1b_ab_apply]
  show FloatOps.matmul _ _ _ _ _ (ix2 n i) + _ = _
  rw [PlainDot.matmul_zero_plain _ dot_plain]
  congr 1
  refine Finset.sum_congr rfl fun κ _ => ?_
  rw [truncf_apply, shapeCast_1ab_ab_apply]

end Cert.KernelIdeal.Body

end
-- ==== Proof.HostPrep.lean ====
/-
  The arrays the kernel region is launched on.

  Before the region the program masks the weights to their lower triangle (entry (i, κ) kept when i ≥ κ, zero
  otherwise), transposes the masked matrix, narrows it to bf16 (the identity on the extended reals) and reshapes the
  bias to one row. So the matrix the region stages holds, at (κ, i), the masked weight (i, κ); the row it stages holds,
  at (0, i), bias i; and the activations are the first argument untouched.
-/
import proofs.«115939_j30640296690077_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Prep
open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The weights masked to their lower triangle, as the program's own operations build them: the row number compared
    with the column number selects the weight or zero. -/
def lowerTri (W : FVec Ideal S512x512 .f32) : FVec Ideal S512x512 .f32 :=
  select (cmpi .sge (addi (iotaInDim S512x512 32 0) (broadcastInDim S512x512 ![] bcast_S_S512x512 (constantI S_ 32 0#32))) (iotaInDim S512x512 32 1))
    W (broadcastInDim S512x512 ![] bcast_S_S512x512 (constant (F := Ideal) S_ .f32 0x00000000#32))

/-- The staged matrix is the masked weights, transposed and narrowed. -/
theorem staged_matrix (c : Dev nD) :
    (V m c main_v2 : FVec Ideal S512x512 .bf16)
      = truncf .bf16 (transpose S512x512 [1, 0] (lowerTri (m ((c : Thread nD τ).loc main_arg1))) transposes_S512x512_S512x512_1_0) bitsLt_bf16_f32 := by
  dsimp only [V]
  simp only [hostOps0, hostOps0_1, List.flatten_cons, List.flatten_nil, List.append_nil, List.cons_append, List.nil_append]
  after_results
  rfl

/-- The staged row is the bias reshaped. -/
theorem staged_row (c : Dev nD) :
    (V m c main_v3 : FVec Ideal S1x512 .f32) = shapeCast S1x512 (m ((c : Thread nD τ).loc main_arg2) : FVec Ideal S512 .f32) shapeCasts_S512_S1x512 := by
  dsimp only [V]
  simp only [hostOps0, hostOps0_1, List.flatten_cons, List.flatten_nil, List.append_nil, List.cons_append, List.nil_append]
  after_results
  rfl

/-- The staged matrix at (κ, i) is the masked weight (i, κ). -/
theorem staged_matrix_apply (c : Dev nD) (κ i : Fin 512) :
    (V m c main_v2 : FVec Ideal S512x512 .bf16) (ix2 κ i) = lowerTri (m ((c : Thread nD τ).loc main_arg1)) (ix2 i κ) := by
  rw [staged_matrix, truncf_apply, transpose_ix2_apply]

/-- The staged row at (0, i) is bias i. -/
theorem staged_row_apply (c : Dev nD) (u : Fin 1) (i : Fin 512) :
    (V m c main_v3 : FVec Ideal S1x512 .f32) (ix2 u i) = (m ((c : Thread nD τ).loc main_arg2) : FVec Ideal S512 .f32) (ix1 i) := by
  rw [staged_row, shapeCast_a_1a_apply]

end Cert.KernelIdeal.Prep

end
-- ==== Proof.TriSpec.lean ====
/-
  The specification: a dense layer whose weight matrix has been masked to its lower triangle.

  For an activation array x of shape [64, 1024, 512], a 512 x 512 matrix L (the masked weights: row i holds the
  coefficients of output feature i) and a bias vector of length 512, the result at (b, n, i) is

      sum over κ < 512 of  x (b, n, κ) * L (i, κ)   +   bias i ,

  read on the extended reals. Nothing here opens L: both programs build it from the weights by the same mask, so
  it is carried as an opaque matrix.
-/
import Idealize.ShloMosaic.PureOps.Ideal
import Idealize.ShloMosaic.Lib.ValueIdx

noncomputable section

open scoped BigOperators

namespace Cert.TriDense
open Idealize.ShloMosaic Idealize.ShloMosaic.ValueIdx

/-- The activations' and the result's shape. -/
abbrev SX : Shape := ⟨3, ![64, 1024, 512]⟩
/-- The weight matrix's shape. -/
abbrev SW : Shape := ⟨2, ![512, 512]⟩
/-- The bias vector's shape. -/
abbrev SB : Shape := ⟨1, ![512]⟩

/-- The layer: every row of activations against every row of the masked weights, plus the bias of that row. -/
def affine (x : FVec Ideal SX .f32) (L : FVec Ideal SW .f32) (bias : FVec Ideal SB .f32) : FVec Ideal SX .f32 :=
  fun j => (∑ κ : Fin 512, x (ix3 (j 0) (j 1) κ) * L (ix2 (j 2) κ)) + bias (ix1 (j 2))

/-- The layer at explicit coordinates. -/
theorem affine_apply (x : FVec Ideal SX .f32) (L : FVec Ideal SW .f32) (bias : FVec Ideal SB .f32)
    (b : Fin 64) (n : Fin 1024) (i : Fin 512) :
    affine x L bias (ix3 b n i) = (∑ κ : Fin 512, x (ix3 b n κ) * L (ix2 i κ)) + bias (ix1 i) := rfl

end Cert.TriDense

end
-- ==== Proof.KernelArray.lean ====
/-
  From blocks to the whole result array.

  Grid point t stages rows of batch entry t: the activations' block is x (t, ·, ·), the matrix and the bias row are
  staged whole, and the result's block is out (t, ·, ·). So what point t writes back is block t of the
  specification at the launch arrays, the 64 blocks tile the result array, and the array ends holding the
  specification.
-/
import proofs.«115939_j30640296690077_1_alg».proof.Proof.Gen.KernelIdeal.Value
import proofs.«115939_j30640296690077_1_alg».proof.Proof.BodyAtIndex
import proofs.«115939_j30640296690077_1_alg».proof.Proof.HostPrep
import proofs.«115939_j30640296690077_1_alg».proof.Proof.TriSpec
import Idealize.ShloMosaic.Lib.Pipeline.Value
import Idealize.ShloMosaic.Lib.ValueIdx

noncomputable section

open scoped BigOperators

namespace Cert.KernelIdeal.Whole
open Cert.KernelIdeal Cert.KernelIdeal.Gen Cert.KernelIdeal.Value Cert.KernelIdeal.Prep Cert.KernelIdeal.Body Cert.TriDense
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result the kernel is to leave on core c: the specification at the launch arrays, the weights masked. -/
abbrev target (c : Dev nD) : FVec Ideal S64x1024x512 .f32 :=
  affine (m ((c : Thread nD τ).loc main_arg0)) (lowerTri (m ((c : Thread nD τ).loc main_arg1))) (m ((c : Thread nD τ).loc main_arg2))

/-- The printed index maps over the grid: the activations' and the result's blocks are numbered by the point along
    the batch axis, the matrix and the bias row are block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The batch entry point t works on. -/
abbrev bat (t : Fin cfg0.N) : Fin 64 := t.cast N_0

/-- The activations' block at point t is batch entry t of the first argument. -/
theorem xblk_apply (c : Dev nD) (t : Fin cfg0.N) (u : Fin 1) (n : Fin 1024) (κ : Fin 512) :
    (iblk m c 0 t : Vec Ideal S1x1024x512 .f32) (ix3 u n κ)
      = (m ((c : Thread nD τ).loc main_arg0) : FVec Ideal S64x1024x512 .f32) (ix3 (bat t) n κ) := by
  obtain ⟨e0, e1, e2, -⟩ := idx_facts t
  have hu : u.val = 0 := by omega
  unfold iblk
  rw [View.read_apply]
  refine (congrFun (V_main_arg0 m c) _).trans (congrArg _ (funext fun a => Fin.ext ?_))
  match a with
  | ⟨0, _⟩ => show win0_0.index t (0 : Fin 3) * 1 + 1 * u.val = t.val; omega
  | ⟨1, _⟩ => show win0_0.index t (1 : Fin 3) * 1024 + 1 * n.val = n.val; omega
  | ⟨2, _⟩ => show win0_0.index t (2 : Fin 3) * 512 + 1 * κ.val = κ.val; omega

/-- The matrix block at any point is the whole staged matrix: at (κ, i) the masked weight (i, κ). -/
theorem wblk_apply (c : Dev nD) (t : Fin cfg0.N) (κ i : Fin 512) :
    (iblk m c 1 t : Vec Ideal S512x512 .bf16) (ix2 κ i) = lowerTri (m ((c : Thread nD τ).loc main_arg1)) (ix2 i κ) := by
  obtain ⟨-, -, -, e0, e1, -⟩ := idx_facts t
  unfold iblk
  rw [View.read_apply]
  refine (congrArg (V m c main_v2 : FVec Ideal S512x512 .bf16) (funext fun a => Fin.ext ?_)).trans (staged_matrix_apply m c κ i)
  match a with
  | ⟨0, _⟩ => show win0_1.index t (0 : Fin 2) * 512 + 1 * κ.val = κ.val; omega
  | ⟨1, _⟩ => show win0_1.index t (1 : Fin 2) * 512 + 1 * i.val = i.val; omega

/-- The bias block at any point is the whole staged row: at (0, i) bias i. -/
theorem bblk_apply (c : Dev nD) (t : Fin cfg0.N) (u : Fin 1) (i : Fin 512) :
    (iblk m c 2 t : Vec Ideal S1x512 .f32) (ix2 u i) = (m ((c : Thread nD τ).loc main_arg2) : FVec Ideal S512 .f32) (ix1 i) := by
  obtain ⟨-, -, -, -, -, e0, e1, -⟩ := idx_facts t
  unfold iblk
  rw [View.read_apply]
  refine (congrArg (V m c main_v3 : FVec Ideal S1x512 .f32) (funext fun a => Fin.ext ?_)).trans (staged_row_apply m c u i)
  match a with
  | ⟨0, _⟩ => show win0_2.index t (0 : Fin 2) * 1 + 1 * u.val = u.val; omega
  | ⟨1, _⟩ => show win0_2.index t (1 : Fin 2) * 512 + 1 * i.val = i.val; omega

/-- The result block's entry (0, n, i) at point t is entry (t, n, i) of the array. -/
theorem oblk_emb (t : Fin cfg0.N) (u : Fin 1) (n : Fin 1024) (i : Fin 512) :
    ((cfg0.win 3).blk t).view.emb (ix3 u n i) = (ix3 (bat t) n i : S64x1024x512.Idx) := by
  obtain ⟨-, -, -, -, -, -, -, e0, e1, e2⟩ := idx_facts t
  have hu : u.val = 0 := by omega
  funext a
  apply Fin.ext
  match a with
  | ⟨0, _⟩ => show win0_3.index t (0 : Fin 3) * 1 + 1 * u.val = t.val; omega
  | ⟨1, _⟩ => show win0_3.index t (1 : Fin 3) * 1024 + 1 * n.val = n.val; omega
  | ⟨2, _⟩ => show win0_3.index t (2 : Fin 3) * 512 + 1 * i.val = i.val; omega

/-- What point t writes back is block t of the target: the body's sum of products over the staged blocks is the
    specification's sum at batch entry t. -/
theorem flushed_eq (c : Dev nD) (t : Fin cfg0.N) :
    (dats m 0 c).flushed 3 t = ((cfg0.win 3).blk t).view.read (Elt Ideal) (target m c) := by
  rw [flushed3]
  unfold out0_3
  rw [View.canon_unit_zero hz3]
  simp only [View.ld_unit_zero (S := S1x1024x512) hz3, View.ld_unit_zero (S := S512x512) hz2, View.ld_unit_zero (S := S1x512) hz2]
  funext y
  obtain ⟨u, n, i, rfl⟩ : ∃ (u : Fin 1) (n : Fin 1024) (i : Fin 512), y = ix3 u n i := ⟨y 0, y 1, y 2, eq_ix3 y⟩
  show k0_pay1 (iblk m c 0 t) (iblk m c 1 t) (iblk m c 2 t) (ix3 u n i) = target m c (((cfg0.win 3).blk t).view.emb (ix3 u n i))
  rw [oblk_emb]
  refine (stored_apply (iblk m c 0 t) (iblk m c 1 t) (iblk m c 2 t) u n i).trans (Eq.trans ?_ (affine_apply _ _ _ (bat t) n i).symm)
  rw [bblk_apply m c t 0 i]
  congr 1
  refine Finset.sum_congr rfl fun κ _ => ?_
  rw [xblk_apply m c t 0 n κ, wblk_apply m c t κ i]

/-- An index of the result array is in point t's block iff each coordinate is in the block's range on its axis. -/
theorem mem_blk (t : Fin cfg0.N) (j : S64x1024x512.Idx) :
    j ∈ ((cfg0.win 3).blk t).view.set ↔ ∀ a : Fin 3, win0_3.index t a * S1x1024x512.size a ≤ (j a).val ∧ (j a).val < win0_3.index t a * S1x1024x512.size a + S1x1024x512.size a := by
  show j ∈ ((View.whole main_v4).slice (win0_3.rect t)).set ↔ _
  rw [View.set_slice_whole, Rect.mem_set_unit]
  exact Iff.rfl

/-- Entry (b, n, i) of the result array lies in the block of point b: the 64 blocks tile the array. -/
theorem cover (j : S64x1024x512.Idx) : ∃ t : Fin cfg0.N, (cfg0.win 3).flush t = true ∧ j ∈ ((cfg0.win 3).blk t).view.set := by
  have h0 : (j 0).val < 64 := (j 0).isLt
  have h1 : (j 1).val < 1024 := (j 1).isLt
  have h2 : (j 2).val < 512 := (j 2).isLt
  refine ⟨(j 0).cast N_0.symm, flush0_3 _, ?_⟩
  obtain ⟨-, -, -, -, -, -, -, e0, e1, e2⟩ := idx_facts ((j 0).cast N_0.symm)
  have e0' : win0_3.index ((j 0).cast N_0.symm) (0 : Fin 3) = (j 0).val := e0
  rw [mem_blk]
  intro a
  match a with
  | ⟨0, _⟩ => show win0_3.index ((j 0).cast N_0.symm) (0 : Fin 3) * 1 ≤ (j 0).val ∧ (j 0).val < win0_3.index ((j 0).cast N_0.symm) (0 : Fin 3) * 1 + 1; omega
  | ⟨1, _⟩ => show win0_3.index ((j 0).cast N_0.symm) (1 : Fin 3) * 1024 ≤ (j 1).val ∧ (j 1).val < win0_3.index ((j 0).cast N_0.symm) (1 : Fin 3) * 1024 + 1024; omega
  | ⟨2, _⟩ => show win0_3.index ((j 0).cast N_0.symm) (2 : Fin 3) * 512 ≤ (j 2).val ∧ (j 2).val < win0_3.index ((j 0).cast N_0.symm) (2 : Fin 3) * 512 + 512; omega

/-- After the run the result array holds the target. -/
theorem final (c : Dev nD) : (dats m 0 c).arrAt 3 cfg0.N = target m c :=
  (dats m 0 c).arrAt_eq_of_cover 3 (target m c) (fun t _ => flushed_eq m c t) cover

/-- The kernel's run, read: the result array at the target, the arguments unchanged. -/
theorem run : θ_run defs (onTc (τ := τ) (main (F := Ideal))) ⟨m, fun _ => 0, ρ⟩ fun r => ∀ c : Dev nD,
      r.2.mem ((c : Thread nD τ).loc main_v4) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefIsSpec.lean ====
/-
  The reference's result is the specification.

  The reference contracts the activations' feature axis with the SECOND axis of the masked weight matrix
  (out (b, n, i) takes row i of the matrix), then adds the bias broadcast over the first two axes. Read at
  (b, n, i) that is  sum over κ of x (b, n, κ) * L (i, κ)  +  bias i,  with L the masked matrix the reference
  builds from the weights.
-/
import proofs.«115939_j30640296690077_1_alg».proof.Proof.Gen.ReferenceIdeal.Read
import proofs.«115939_j30640296690077_1_alg».proof.Proof.TriSpec
import Idealize.ShloMosaic.Lib.ValueIdx

noncomputable section

open scoped BigOperators

namespace Cert.ReferenceIdeal.RefValue
open Cert.ReferenceIdeal Cert.ReferenceIdeal.Read Cert.TriDense Idealize.ShloMosaic Idealize.ShloMosaic.ValueIdx

/-- The activations' entry the product reads at (b, n, i) and contracted coordinate κ. -/
theorem lidx_eq (j : S64x1024x512.Idx) (κ : Fin 512) : lidx_main_v1 j κ = ix3 (j 0) (j 1) κ :=
  funext fun a => match a with | ⟨0, _⟩ => rfl | ⟨1, _⟩ => rfl | ⟨2, _⟩ => rfl

/-- The matrix entry it reads there: row i, column κ. -/
theorem ridx_eq (j : S64x1024x512.Idx) (κ : Fin 512) : ridx_main_v1 j κ = ix2 (j 2) κ :=
  funext fun a => match a with | ⟨0, _⟩ => rfl | ⟨1, _⟩ => rfl

/-- The bias entry the two broadcasts read at (b, n, i): entry i. -/
theorem bidx_eq (j : S64x1024x512.Idx) : idx_main_v2 (idx_main_v3 j) = ix1 (j 2) :=
  funext fun a => match a with | ⟨0, _⟩ => rfl

/-- The reference's result, as a function of its three arguments, is the specification at the masked matrix. -/
theorem result_eq (x : FVec Ideal S64x1024x512 .f32) (W : FVec Ideal S512x512 .f32) (bias : FVec Ideal S512 .f32) :
    val_main_v4 (F := Ideal) x W bias = affine x (val_main_v0 (F := Ideal) W) bias := by
  funext j
  rw [val_main_v4_apply, val_main_v1_apply, val_main_v3_apply, val_main_v2_apply]
  simp only [lidx_eq, ridx_eq, bidx_eq]
  rfl

end Cert.ReferenceIdeal.RefValue

end
-- ==== Proof.lean ====
/-
  A dense layer with lower-triangular weights, computed block by block on the accelerator, against its einsum
  reference: out (b, n, i) = sum over κ ≤ i of x (b, n, κ) * W (i, κ) + bias i.

  Both programs first mask the weights to their lower triangle by the same operations. The kernel then transposes
  the masked matrix, narrows it to bf16 (the identity on the extended reals), and for each of the 64 batch entries
  multiplies the entry's 1024 x 512 block of activations into it and adds the bias row; the reference contracts the
  activations' feature axis with the masked matrix's second axis and adds the bias broadcast. At every index both
  are the same sum of the same products plus the same bias entry, so no property of the numbers is used: the
  precondition is never opened.

  The frames of the two kernel programs are the generated ones; the reference's frame is its generated run with
  the result dropped; the idealization rewrote nothing.
-/
import proofs.«115939_j30640296690077_1_alg».proof.Defs
import proofs.«115939_j30640296690077_1_alg».proof.Proof.Gen.Kernel
import proofs.«115939_j30640296690077_1_alg».proof.Proof.Gen.Kernel.Skeleton
import proofs.«115939_j30640296690077_1_alg».proof.Proof.Gen.Kernel.Launch
import proofs.«115939_j30640296690077_1_alg».proof.Proof.Gen.Kernel.Points
import proofs.«115939_j30640296690077_1_alg».proof.Proof.Gen.Kernel.Frame
import proofs.«115939_j30640296690077_1_alg».proof.Proof.Gen.KernelIdeal
import proofs.«115939_j30640296690077_1_alg».proof.Proof.Gen.KernelIdeal.Skeleton
import proofs.«115939_j30640296690077_1_alg».proof.Proof.Gen.KernelIdeal.Launch
import proofs.«115939_j30640296690077_1_alg».proof.Proof.Gen.KernelIdeal.Points
import proofs.«115939_j30640296690077_1_alg».proof.Proof.Gen.KernelIdeal.Frame
import proofs.«115939_j30640296690077_1_alg».proof.Proof.Gen.ReferenceIdeal
import proofs.«115939_j30640296690077_1_alg».proof.Proof.Gen.Pre_finite_inputs
import proofs.«115939_j30640296690077_1_alg».proof.Proof.Gen.KernelIdeal.Value
import proofs.«115939_j30640296690077_1_alg».proof.Proof.Gen.ReferenceIdeal.Run
import proofs.«115939_j30640296690077_1_alg».proof.Proof.Gen.ReferenceIdeal.Read
import proofs.«115939_j30640296690077_1_alg».proof.Proof.KernelArray
import proofs.«115939_j30640296690077_1_alg».proof.Proof.RefIsSpec
import Idealize.ShloMosaic.Adequacy
import Idealize.ShloMosaic.Init

noncomputable section

namespace Cert.Proof

open Idealize.ShloMosaic Idealize.SL.Sem

/-- The two programs build the masked weights by the same operations. -/
theorem masked_eq (W : FVec Ideal Cert.KernelIdeal.S512x512 .f32) :
    Cert.ReferenceIdeal.Read.val_main_v0 (F := Ideal) W = Cert.KernelIdeal.Prep.lowerTri W := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the specification of the launch arrays: the kernel's by tiling the result with its 64 blocks,
    the reference's by reading its contraction and broadcasts at an index. -/
theorem algebraic : Cert.algebraic_KernelIdeal_ReferenceIdeal := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v4_eq,
    Cert.ReferenceIdeal.RefValue.result_eq, masked_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
